-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256 : Shape := ⟨2, ![512, 256]⟩
abbrev S100000x4 : Shape := ⟨2, ![100000, 4]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S100000x4 : S_.BroadcastsInDim S100000x4 (![] : Fin 0 → Fin S100000x4.rank)
  reducesTo_S100000x4_S_d0_1 : S100000x4.ReducesTo [0, 1] S_

variable [Facts]

def fn_part1 {F : FTy → Type} [FloatOps F] (main_arg4 : IVec S100000x4 32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_c_6 : IVec S_ 32 := constantI S_ 32 0#32
  let main_v19 : IVec S100000x4 32 := broadcastInDim S100000x4 ![] bcast_S_S100000x4 main_c_6
  let main_v20 : IVec S100000x4 1 := cmpi .sge main_arg4 main_v19
  let main_c_7 : IVec S_ 1 := constantI S_ 1 1#1
  let main_v21 : IVec S_ 1 := (fun x v => Host.reduce IntOp.andi x v reducesTo_S100000x4_S_d0_1 h_S_) main_v20 main_c_7
  let main_v22 : IVec S_ 1 := andi main_v18 main_v21
  let main_c_8 : IVec S_ 32 := constantI S_ 32 512#32
  let main_v23 : IVec S100000x4 32 := broadcastInDim S100000x4 ![] bcast_S_S100000x4 main_c_8
  let main_v24 : IVec S100000x4 1 := cmpi .slt main_arg4 main_v23
  let main_c_9 : IVec S_ 1 := constantI S_ 1 1#1
  let main_v25 : IVec S_ 1 := (fun x v => Host.reduce IntOp.andi x v reducesTo_S100000x4_S_d0_1 h_S_) main_v24 main_c_9
  let main_v26 : IVec S_ 1 := andi main_v22 main_v25
  main_v26

def fn {F : FTy → Type} [FloatOps F] (main_arg0 : FVec F S512x256 .f32) (main_arg1 : FVec F S512x256 .f32) (main_arg2 : FVec F S512x256 .f32) (main_arg3 : FVec F S512x256 .f32) (main_arg4 : IVec S100000x4 32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_v13 main_v16
-- ==== Kernel.lean ====
abbrev S512x256 : Shape := ⟨2, ![512, 256]⟩
abbrev S100000x4 : Shape := ⟨2, ![100000, 4]⟩
abbrev S_ : Shape := ⟨0, ![]⟩
abbrev S106496x4 : Shape := ⟨2, ![106496, 4]⟩
abbrev S26x1x4096 : Shape := ⟨3, ![26, 1, 4096]⟩
abbrev S4096x4 : Shape := ⟨2, ![4096, 4]⟩
abbrev S1x1x4096 : Shape := ⟨3, ![1, 1, 4096]⟩
abbrev S1x512 : Shape := ⟨2, ![1, 512]⟩
abbrev S4096x1 : Shape := ⟨2, ![4096, 1]⟩
abbrev S4096x512 : Shape := ⟨2, ![4096, 512]⟩
abbrev S4096x256 : Shape := ⟨2, ![4096, 256]⟩
abbrev S4096 : Shape := ⟨1, ![4096]⟩
abbrev S1x4096 : Shape := ⟨2, ![1, 4096]⟩
abbrev S106496 : Shape := ⟨1, ![106496]⟩
abbrev S100000 : Shape := ⟨1, ![100000]⟩

abbrev nBuf : Space → Nat
  | .hbm => 15
  | .vmem => 8
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S100000x4, .i32⟩
  | .hbm, ⟨5, _⟩ => ⟨S_, .i32⟩
  | .hbm, ⟨6, _⟩ => ⟨S_, .i32⟩
  | .hbm, ⟨7, _⟩ => ⟨S106496x4, .i32⟩
  | .hbm, ⟨8, _⟩ => ⟨S512x256, .bf16⟩
  | .hbm, ⟨9, _⟩ => ⟨S512x256, .bf16⟩
  | .hbm, ⟨10, _⟩ => ⟨S512x256, .bf16⟩
  | .hbm, ⟨11, _⟩ => ⟨S512x256, .bf16⟩
  | .hbm, ⟨12, _⟩ => ⟨S26x1x4096, .f32⟩
  | .hbm, ⟨13, _⟩ => ⟨S106496, .f32⟩
  | .hbm, ⟨14, _⟩ => ⟨S100000, .f32⟩
  | .local _ .vmem, ⟨0, _⟩ => ⟨S4096x4, .i32⟩
  | .local _ .vmem, ⟨1, _⟩ => ⟨S4096x4, .i32⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S1x1x4096, .f32⟩
  | .local _ .vmem, ⟨7, _⟩ => ⟨S1x1x4096, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x4 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  pads_S100000x4_S106496x4_064960_000 : S100000x4.Pads (![0, 0] : Fin 2 → Nat) ![6496, 0] ![0, 0] S106496x4
  h_S_ : 0 < S_.numel
  bitsLt_bf16_f32 : FTy.bits .bf16 < FTy.bits .f32
  inb_S4096x4_S4096x4_0_0 : ∀ a, (![0, 0] : Fin 2 → Nat) a + S4096x4.size a ≤ S4096x4.size a
  h_S4096x4 : 0 < S4096x4.numel
  shapeCasts_S4096x4_S4096x4 : S4096x4.ShapeCasts S4096x4
  inb_S512x256_S512x256_0_0 : ∀ a, (![0, 0] : Fin 2 → Nat) a + S512x256.size a ≤ S512x256.size a
  h_S512x256 : 0 < S512x256.numel
  shapeCasts_S512x256_S512x256 : S512x256.ShapeCasts S512x256
  iota_S1x512_d1_w32 : S1x512.Iotas .tc 32 [1]
  slices_S4096x4_o0_0_S4096x1 : S4096x4.Slices ![0, 0] S4096x1
  broadcasts_S4096x1_S4096x512 : S4096x1.Broadcasts S4096x512
  broadcasts_S1x512_S4096x512 : S1x512.Broadcasts S4096x512
  natLt_1_32 : 1 < 32
  slices_S4096x4_o0_1_S4096x1 : S4096x4.Slices ![0, 1] S4096x1
  slices_S4096x4_o0_2_S4096x1 : S4096x4.Slices ![0, 2] S4096x1
  slices_S4096x4_o0_3_S4096x1 : S4096x4.Slices ![0, 3] S4096x1
  reduces_S4096x256_S4096 : S4096x256.Reduces [1] S4096
  shapeCasts_S4096_S4096x1 : S4096.ShapeCasts S4096x1
  transposes_S4096x1_p1_0_S1x4096 : S4096x1.Transposes [1, 0] S1x4096
  shapeCasts_S1x4096_S1x1x4096 : S1x4096.ShapeCasts S1x1x4096
  inb_S1x1x4096_S1x1x4096_0_0_0 : ∀ a, (![0, 0, 0] : Fin 3 → Nat) a + S1x1x4096.size a ≤ S1x1x4096.size a
  h_S1x1x4096 : 0 < S1x1x4096.numel
  shapeCasts_S26x1x4096_S106496 : S26x1x4096.ShapeCasts S106496
  slices_S106496_S100000_0 : S106496.Slices ![0] S100000
  dot_S4096x512_S512x256_S4096x256_1_0_0_1_n_n_wf : DotDims.WF S4096x512 S512x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x4.size a ≤ S106496x4.size a
  hwx0_0 : ∀ i : grid0.Coords, EltTy.bits .i32 = 32 ∨ (Rect.block (s := S106496x4) S4096x4.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .bf16 = 32 ∨ (Rect.block (s := S512x256) S512x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .bf16 = 32 ∨ (Rect.block (s := S512x256) S512x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S512x256.size a
  hwx0_4 : ∀ i : grid0.Coords, EltTy.bits .bf16 = 32 ∨ (Rect.block (s := S512x256) S512x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x4096.size a ≤ S26x1x4096.size a
  hwx0_5 : ∀ i : grid0.Coords, EltTy.bits .f32 = 32 ∨ (Rect.block (s := S26x1x4096) S1x1x4096.size (cc0_transform_5 i) (hinb0_5 i)).WholeWords (EltTy.packing .f32)

variable [Facts₀]

def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf

abbrev win0_0 : Pipeline.Window sig grid0 :=
  Pipeline.Window.ofSpec (Memref.whole main_v0) S4096x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S512x256 : Shape := ⟨2, ![512, 256]⟩
abbrev S100000x4 : Shape := ⟨2, ![100000, 4]⟩
abbrev S100000x1 : Shape := ⟨2, ![100000, 1]⟩
abbrev S100000 : Shape := ⟨1, ![100000]⟩
abbrev S_ : Shape := ⟨0, ![]⟩
abbrev S100000x256 : Shape := ⟨2, ![100000, 256]⟩

abbrev nBuf : Space → Nat
  | .hbm => 54
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S100000x4, .i32⟩
  | .hbm, ⟨5, _⟩ => ⟨S100000x1, .i32⟩
  | .hbm, ⟨6, _⟩ => ⟨S100000, .i32⟩
  | .hbm, ⟨7, _⟩ => ⟨S_, .i32⟩
  | .hbm, ⟨8, _⟩ => ⟨S100000, .i32⟩
  | .hbm, ⟨9, _⟩ => ⟨S100000, .i1⟩
  | .hbm, ⟨10, _⟩ => ⟨S_, .i32⟩
  | .hbm, ⟨11, _⟩ => ⟨S100000, .i32⟩
  | .hbm, ⟨12, _⟩ => ⟨S100000, .i32⟩
  | .hbm, ⟨13, _⟩ => ⟨S100000, .i32⟩
  | .hbm, ⟨14, _⟩ => ⟨S100000x1, .i32⟩
  | .hbm, ⟨15, _⟩ => ⟨S100000x256, .f32⟩
  | .hbm, ⟨16, _⟩ => ⟨S100000x1, .i32⟩
  | .hbm, ⟨17, _⟩ => ⟨S100000, .i32⟩
  | .hbm, ⟨18, _⟩ => ⟨S_, .i32⟩
  | .hbm, ⟨19, _⟩ => ⟨S100000, .i32⟩
  | .hbm, ⟨20, _⟩ => ⟨S100000, .i1⟩
  | .hbm, ⟨21, _⟩ => ⟨S_, .i32⟩
  | .hbm, ⟨22, _⟩ => ⟨S100000, .i32⟩
  | .hbm, ⟨23, _⟩ => ⟨S100000, .i32⟩
  | .hbm, ⟨24, _⟩ => ⟨S100000, .i32⟩
  | .hbm, ⟨25, _⟩ => ⟨S100000x1, .i32⟩
  | .hbm, ⟨26, _⟩ => ⟨S100000x256, .f32⟩
  | .hbm, ⟨27, _⟩ => ⟨S100000x256, .f32⟩
  | .hbm, ⟨28, _⟩ => ⟨S100000x1, .i32⟩
  | .hbm, ⟨29, _⟩ => ⟨S100000, .i32⟩
  | .hbm, ⟨30, _⟩ => ⟨S_, .i32⟩
  | .hbm, ⟨31, _⟩ => ⟨S100000, .i32⟩
  | .hbm, ⟨32, _⟩ => ⟨S100000, .i1⟩
  | .hbm, ⟨33, _⟩ => ⟨S_, .i32⟩
  | .hbm, ⟨34, _⟩ => ⟨S100000, .i32⟩
  | .hbm, ⟨35, _⟩ => ⟨S100000, .i32⟩
  | .hbm, ⟨36, _⟩ => ⟨S100000, .i32⟩
  | .hbm, ⟨37, _⟩ => ⟨S100000x1, .i32⟩
  | .hbm, ⟨38, _⟩ => ⟨S100000x256, .f32⟩
  | .hbm, ⟨39, _⟩ => ⟨S100000x256, .f32⟩
  | .hbm, ⟨40, _⟩ => ⟨S100000x1, .i32⟩
  | .hbm, ⟨41, _⟩ => ⟨S100000, .i32⟩
  | .hbm, ⟨42, _⟩ => ⟨S_, .i32⟩
  | .hbm, ⟨43, _⟩ => ⟨S100000, .i32⟩
  | .hbm, ⟨44, _⟩ => ⟨S100000, .i1⟩
  | .hbm, ⟨45, _⟩ => ⟨S_, .i32⟩
  | .hbm, ⟨46, _⟩ => ⟨S100000, .i32⟩
  | .hbm, ⟨47, _⟩ => ⟨S100000, .i32⟩
  | .hbm, ⟨48, _⟩ => ⟨S100000, .i32⟩
  | .hbm, ⟨49, _⟩ => ⟨S100000x1, .i32⟩
  | .hbm, ⟨50, _⟩ => ⟨S100000x256, .f32⟩
  | .hbm, ⟨51, _⟩ => ⟨S100000x256, .f32⟩
  | .hbm, ⟨52, _⟩ => ⟨S_, .f32⟩
  | .hbm, ⟨53, _⟩ => ⟨S100000, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_c_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst : Ref sig .tc := ⟨.hbm, 52, rfl⟩
abbrev main_v39 : Ref sig .tc := ⟨.hbm, 53, rfl⟩

abbrev nD : Nat := 1
abbrev τ : Topo := Topo.v7x

variable {F : FTy → Type} [FloatOps F]

class Facts₀ : Prop where
  slices_S100000x4_S100000x1_0_0 : S100000x4.Slices ![0, 0] S100000x1
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S100000x4_S100000x1_0_1 : S100000x4.Slices ![0, 1] S100000x1
  slices_S100000x4_S100000x1_0_2 : S100000x4.Slices ![0, 2] S100000x1
  slices_S100000x4_S100000x1_0_3 : S100000x4.Slices ![0, 3] S100000x1
  reducesTo_S100000x256_S100000_d1 : S100000x256.ReducesTo [1] S100000
  h_S_ : 0 < S_.numel
  gather_S512x256_S100000x1_S100000x256_1_0_n_n_0_1_1256_wf : GatherDims.WF S512x256 S100000x1 S100000x256 [1] [0] [] [0] [] 1 ![1, 256]

variable [Facts₀]

def gather_S512x256_S100000x1_S100000x256_1_0_n_n_0_1_1256 : GatherDims S512x256 S100000x1 S100000x256 where
  offsetDims := [1]
  collapsedSliceDims := [0]
  operandBatchingDims := []
  startIndicesBatchingDims := []
  startIndexMap := [0]
  indexVectorDim := 1
  sliceSizes := ![1, 256]
  wf := gather_S512x256_S100000x1_S100000x256_1_0_n_n_0_1_1256_wf

class Facts : Prop extends Facts₀ where

variable [Facts]
-- ==== Proof.Lookup.lean ====
/-
  A rank-256 canonical-polyadic tensor read at a list of queries. Four factor tables f₀ … f₃ (512 rows of 256
  numbers each) and a query list q (100000 rows of four index words); the value of query b is

      Σ_r  ((f₀[q(b,0), r] · f₁[q(b,1), r]) · f₂[q(b,2), r]) · f₃[q(b,3), r].

  This file states that function (`value`), says which table row an index word names (`row`: a negative word is
  shifted up by the extent 512 and the result, read signed, is clamped into the table; a word already in [0, 512)
  names the row of its own number, `row_val`), and proves the one law by which the two programs differ: a row picked
  out of a table by a sum against an indicator vector,

      Σ_d [w = d] · x(d) = x(w)        for 0 ≤ w < 512          (`sum_hot`).

  The law needs only 0 · x = 0 and 1 · x = x, which hold for every extended real, so finiteness never enters.
-/
import Idealize.ShloMosaic.PureOps.Ideal
import Idealize.ShloMosaic.Lib.ValueIdx
import Idealize.ShloMosaic.Lib.StableHlo.Predicate

noncomputable section

namespace Cert.Lookup

open Idealize.ShloMosaic Idealize.ShloMosaic.ValueIdx

abbrev Tab : Shape := ⟨2, ![512, 256]⟩
abbrev Qry : Shape := ⟨2, ![100000, 4]⟩
abbrev Res : Shape := ⟨1, ![100000]⟩

/-! ## Which row an index word names -/

/-- A negative index counts from the end of the axis: it is shifted up by the extent. -/
def wrap (w : BitVec 32) : BitVec 32 := Scalar.select (IntOp.cmpi .slt w 0#32) (IntOp.addi w 512#32) w

/-- A word read as a signed number and clamped into 0 … 511. -/
def clamp (w : BitVec 32) : Fin 512 := ⟨min w.toInt.toNat 511, by omega⟩

/-- The table row an index word names: the wrapped word, clamped into the table. -/
def row (w : BitVec 32) : Fin 512 := clamp (wrap w)

/-- The word is a valid index into an axis of extent 512: 0 ≤ w < 512 as a signed number. -/
def InRange (w : BitVec 32) : Prop := IntOp.cmpi .sge w 0#32 = 1#1 ∧ IntOp.cmpi .slt w 512#32 = 1#1

theorem toInt_of_inRange {w : BitVec 32} (h : InRange w) : 0 ≤ w.toInt ∧ w.toInt < 512 := by
  obtain ⟨h0, h1⟩ := h
  unfold IntOp.cmpi at h0 h1
  rw [StableHlo.Predicate.ofBool_eq_one_iff] at h0 h1
  simp only [BitVec.sle, BitVec.slt, decide_eq_true_eq] at h0 h1
  have e0 : (0#32 : BitVec 32).toInt = 0 := by decide
  have e1 : (512#32 : BitVec 32).toInt = 512 := by decide
  rw [e0] at h0; rw [e1] at h1
  exact ⟨h0, h1⟩

/-- A valid index word is below 512 as a natural number, -/
theorem toNat_lt {w : BitVec 32} (h : InRange w) : w.toNat < 512 := by
  have ⟨h0, h1⟩ := toInt_of_inRange h
  have hw := w.isLt
  rw [BitVec.toInt_eq_toNat_cond] at h0 h1
  split at h0 <;> omega

/-- is left alone by the wrap, -/
theorem wrap_eq {w : BitVec 32} (h : InRange w) : wrap w = w := by
  have ⟨h0, _⟩ := toInt_of_inRange h
  have hs : IntOp.cmpi .slt w 0#32 = 0#1 := by
    unfold IntOp.cmpi
    have : w.slt 0#32 = false := by
      have e0 : (0#32 : BitVec 32).toInt = 0 := by decide
      simp only [BitVec.slt, decide_eq_false_iff_not, e0]; omega
    rw [this]; rfl
  unfold wrap; rw [hs]; exact select_zero _ _

/-- and names the row of its own number. -/
theorem row_val {w : BitVec 32} (h : InRange w) : (row w).val = w.toNat := by
  have ⟨h0, h1⟩ := toInt_of_inRange h
  have hlt := toNat_lt h
  have hw := w.isLt
  show min (wrap w).toInt.toNat 511 = w.toNat
  rw [wrap_eq h, BitVec.toInt_eq_toNat_cond]
  split <;> omega

/-! ## A row picked out by an indicator vector -/

/-- Entry d of the indicator vector of the word w: the bit of "w = d", widened to a word and read as a number —
    one where the word is d, zero elsewhere. -/
def hot (w : BitVec 32) (d : Fin 512) : EReal :=
  ((((IntOp.cmpi .eq w (BitVec.ofNat 32 d.val)).setWidth 32).toInt : ℝ) : EReal)

theorem hot_of_eq {w : BitVec 32} {d : Fin 512} (h : w = BitVec.ofNat 32 d.val) : hot w d = 1 := by
  unfold hot IntOp.cmpi
  have : (w == BitVec.ofNat 32 d.val) = true := by rw [h]; exact beq_self_eq_true _
  rw [this]
  have : ((BitVec.ofBool true).setWidth 32 : BitVec 32).toInt = 1 := by decide
  rw [this]; norm_num

theorem hot_of_ne {w : BitVec 32} {d : Fin 512} (h : w ≠ BitVec.ofNat 32 d.val) : hot w d = 0 := by
  unfold hot IntOp.cmpi
  have : (w == BitVec.ofNat 32 d.val) = false := beq_eq_false_iff_ne.mpr h
  rw [this]
  have : ((BitVec.ofBool false).setWidth 32 : BitVec 32).toInt = 0 := by decide
  rw [this]; norm_num

/-- THE LAW: against the indicator vector of a valid index word, a sum over the table's rows is the named row's entry. -/
theorem sum_hot (x : Fin 512 → EReal) {w : BitVec 32} (h : InRange w) : ∑ d : Fin 512, hot w d * x d = x (row w) := by
  have hrow : w = BitVec.ofNat 32 (row w).val := by rw [row_val h, BitVec.ofNat_toNat, BitVec.setWidth_eq]
  rw [Finset.sum_eq_single (row w)]
  · rw [hot_of_eq hrow, one_mul]
  · intro d _ hd
    rw [hot_of_ne, zero_mul]
    intro hw
    apply hd
    apply Fin.ext
    rw [row_val h, hw, BitVec.toNat_ofNat]
    exact (Nat.mod_eq_of_lt (by have := d.isLt; omega)).symm
  · intro hn; exact absurd (Finset.mem_univ _) hn

/-! ## The value -/

/-- The value of one query of a list of N: the sum over the rank of the product of the four named rows' entries, grouped
    from the left. -/
def entry {N : Nat} (f0 f1 f2 f3 : Tab.Idx → EReal) (q : (⟨2, ![N, 4]⟩ : Shape).Idx → BitVec 32) (b : Fin N) : EReal :=
  ∑ r : Fin 256, ((f0 (ix2 (row (q (ix2 b 0))) r) * f1 (ix2 (row (q (ix2 b 1))) r)) * f2 (ix2 (row (q (ix2 b 2))) r))
    * f3 (ix2 (row (q (ix2 b 3))) r)

/-- All queries' values, as an array. -/
def value (f0 f1 f2 f3 : Tab.Idx → EReal) (q : Qry.Idx → BitVec 32) : Res.Idx → EReal :=
  fun j => entry f0 f1 f2 f3 q (j 0)

end Cert.Lookup

end
-- ==== Proof.Body.lean ====
/-
  One lane of the kernel body's stored block.

  The body holds a block of 4096 queries (four index words each) and the four 512 × 256 tables. For column i it lays
  the column's words along 512 columns and the row numbers 0 … 511 down 4096 rows, compares them, and reads the bit as
  a number: the indicator matrix H_i(q, d) = [word of query q in column i = d]. The product H_i · f_i into a zero
  accumulator is, at (q, r), Σ_d H_i(q, d) · f_i(d, r); by the indicator-sum law (`Lookup.sum_hot`) that is
  f_i(row named by the word, r) when the word is a valid index (`pick`). The body multiplies the four products entry by
  entry, grouped from the left, sums each row over its 256 lanes from zero, and stores the 4096 sums, through a
  transpose and two shape casts that only rename the index, at (0, 0, q). So the stored lane q is `Lookup.entry` of
  query q (`entry_at`).

  What is shown about the matrix product's index bookkeeping: for a result index (q, r) and contraction coordinate d
  the left operand is read at (q, d) and the right at (d, r) (`lhs_at`, `rhs_at`, from the four axis facts above them).
-/
import proofs.«403389_j44272522887177_3_alg».proof.Proof.Gen.KernelIdeal.Skeleton
import proofs.«403389_j44272522887177_3_alg».proof.Proof.Lookup
import Idealize.ShloMosaic.Lib.Pipeline.Value
import Idealize.ShloMosaic.Lib.ValueIdx
import Idealize.ShloMosaic.PureOps.Ideal.Laws

noncomputable section

namespace Cert.KernelBody

open Idealize.ShloMosaic Idealize.ShloMosaic.ValueIdx Cert.KernelIdeal Cert.KernelIdeal.Gen Cert.Lookup

abbrev D := dot_S4096x512_S512x256_S4096x256_1_0_0_1_n_n

theorem lhs_row (j : S4096x256.Idx) (k : D.contr.Idx) : (D.lhsIdx j k 0).val = (j 0).val := by
  unfold DotDims.lhsIdx
  rw [dif_neg (show ¬ (0 : Fin S4096x512.rank) ∈ D.lhsBatch by decide),
    dif_pos (show (0 : Fin S4096x512.rank) ∈ D.lhsNonContracting by decide)]
  rfl

theorem lhs_col (j : S4096x256.Idx) (k : D.contr.Idx) : (D.lhsIdx j k 1).val = (k ⟨0, by decide⟩).val :=
  DotDims.lhsIdx_val_of_single D (cl := 1) rfl j k

theorem rhs_row (j : S4096x256.Idx) (k : D.contr.Idx) : (D.rhsIdx j k 0).val = (k ⟨0, by decide⟩).val :=
  DotDims.rhsIdx_val_of_single D (cr := 0) rfl j k

theorem rhs_col (j : S4096x256.Idx) (k : D.contr.Idx) : (D.rhsIdx j k 1).val = (j 1).val := by
  unfold DotDims.rhsIdx
  rw [dif_neg (show ¬ (1 : Fin S512x256.rank) ∈ D.rhsBatch by decide),
    dif_pos (show (1 : Fin S512x256.rank) ∈ D.rhsNonContracting by decide)]
  rfl

abbrev cE : D.contr.Idx ≃ Fin 512 := contrEquiv1 D 512 rfl rfl

theorem lhs_at (q : Fin 4096) (r : Fin 256) (d : Fin 512) : D.lhsIdx (ix2 q r) (cE.symm d) = ix2 q d := by
  funext a; apply Fin.ext
  match a with
  | ⟨0, _⟩ => exact lhs_row _ _
  | ⟨1, _⟩ => exact (lhs_col _ _).trans (contrEquiv1_symm_val D 512 rfl rfl d)

theorem rhs_at (q : Fin 4096) (r : Fin 256) (d : Fin 512) : D.rhsIdx (ix2 q r) (cE.symm d) = ix2 d r := by
  funext a; apply Fin.ext
  match a with
  | ⟨0, _⟩ => exact (rhs_row _ _).trans (contrEquiv1_symm_val D 512 rfl rfl d)
  | ⟨1, _⟩ => exact rhs_col _ _

/-- Column o of the block of index words, laid along the 512 table rows, reads the word of its own row. -/
theorem col_at (x0 : Vec Ideal S4096x4 .i32) (o : Nat) (ho : o < 4) (hs : S4096x4.Slices ![0, o] S4096x1) (q : Fin 4096) (d : Fin 512) :
    broadcastTo S4096x512 (extractStridedSlice S4096x1 ![0, o] (k0_pay2 (F := Ideal) x0) hs) broadcasts_S4096x1_S4096x512 (ix2 q d)
      = x0 (ix2 q ⟨o, ho⟩) := by
  refine (broadcastTo_apply _ broadcasts_S4096x1_S4096x512 (ix2 q d) (ix2 q 0) (fun a => ?_)).trans ?_
  · match a with
    | ⟨0, _⟩ => show q.val = if (4096 : Nat) = 1 then 0 else q.val; rw [if_neg (by decide)]
    | ⟨1, _⟩ => show (0 : Nat) = if (1 : Nat) = 1 then 0 else d.val; rw [if_pos rfl]
  refine (extractStridedSlice_apply ![0, o] _ hs (ix2 q 0) (ix2 q ⟨o, ho⟩) (fun a => ?_)).trans ?_
  · match a with
    | ⟨0, _⟩ => show q.val = 0 + q.val; omega
    | ⟨1, _⟩ => show o = o + 0; omega
  unfold k0_pay2
  rw [shapeCast_self]

/-- The row of table-row numbers, laid down the 4096 query rows, reads the number of its own column. -/
theorem iota_at (q : Fin 4096) (d : Fin 512) :
    broadcastTo S4096x512 (iota .tc S1x512 32 [1] iota_S1x512_d1_w32) broadcasts_S1x512_S4096x512 (ix2 q d) = BitVec.ofNat 32 d.val := by
  refine (broadcastTo_apply _ broadcasts_S1x512_S4096x512 (ix2 q d) (ix2 0 d) (fun a => ?_)).trans ?_
  · match a with
    | ⟨0, _⟩ => show (0 : Nat) = if (1 : Nat) = 1 then 0 else q.val; rw [if_pos rfl]
    | ⟨1, _⟩ => show d.val = if (512 : Nat) = 1 then 0 else d.val; rw [if_neg (by decide)]
  show BitVec.ofNat 32 (0 * 512 + d.val) = _
  rw [Nat.zero_mul, Nat.zero_add]

/-- Entry (q, d) of the indicator matrix of column o: one where the query's index word is d, zero elsewhere. -/
theorem hot_at (x0 : Vec Ideal S4096x4 .i32) (o : Nat) (ho : o < 4) (hs : S4096x4.Slices ![0, o] S4096x1) (q : Fin 4096) (d : Fin 512) :
    (truncf .bf16 (sitofp (F := Ideal) .f32 (extui 32 (cmpi .eq
        (broadcastTo S4096x512 (extractStridedSlice S4096x1 ![0, o] (k0_pay2 (F := Ideal) x0) hs) broadcasts_S4096x1_S4096x512)
        (broadcastTo S4096x512 (iota .tc S1x512 32 [1] iota_S1x512_d1_w32) broadcasts_S1x512_S4096x512)) natLt_1_32)) bitsLt_bf16_f32
      : FVec Ideal S4096x512 .bf16) (ix2 q d) = hot (x0 (ix2 q ⟨o, ho⟩)) d := by
  show ((((IntOp.cmpi .eq
        (broadcastTo S4096x512 (extractStridedSlice S4096x1 ![0, o] (k0_pay2 (F := Ideal) x0) hs) broadcasts_S4096x1_S4096x512 (ix2 q d))
        (broadcastTo S4096x512 (iota .tc S1x512 32 [1] iota_S1x512_d1_w32) broadcasts_S1x512_S4096x512 (ix2 q d))).setWidth 32).toInt : ℝ) : EReal) = _
  rw [col_at x0 o ho hs q d, iota_at q d]
  rfl

/-- THE GATHER BY A MATRIX PRODUCT: the indicator matrix of column o times a table, at (q, r), is the table's entry at
    (the row the query's index word names, r) — for a valid index word. -/
theorem pick (x0 : Vec Ideal S4096x4 .i32) (o : Nat) (ho : o < 4) (hs : S4096x4.Slices ![0, o] S4096x1) (xi : Vec Ideal S512x256 .bf16)
    (q : Fin 4096) (r : Fin 256) (hq : InRange (x0 (ix2 q ⟨o, ho⟩))) :
    matmul D none
      (truncf .bf16 (sitofp (F := Ideal) .f32 (extui 32 (cmpi .eq
        (broadcastTo S4096x512 (extractStridedSlice S4096x1 ![0, o] (k0_pay2 (F := Ideal) x0) hs) broadcasts_S4096x1_S4096x512)
        (broadcastTo S4096x512 (iota .tc S1x512 32 [1] iota_S1x512_d1_w32) broadcasts_S1x512_S4096x512)) natLt_1_32)) bitsLt_bf16_f32)
      (shapeCast S512x256 xi shapeCasts_S512x256_S512x256 : FVec Ideal S512x256 .bf16)
      (constant S4096x256 .f32 0x00000000#32) (ix2 q r)
    = xi (ix2 (row (x0 (ix2 q ⟨o, ho⟩))) r) := by
  refine (Ideal.matmul_constant_zero_apply D none _ _ (ix2 q r)).trans ?_
  rw [← Equiv.sum_comp cE.symm]
  refine (Finset.sum_congr rfl fun d _ => ?_).trans (sum_hot (fun d => xi (ix2 d r)) hq)
  rw [lhs_at, rhs_at, hot_at x0 o ho hs q d, shapeCast_self]

/-- ONE ENTRY OF THE OUTPUT BLOCK: the body's stored value at lane q is the sum over the rank of the product, grouped from
    the left, of the four tables' entries in the rows query q's index words name — when those words are valid indices. -/
theorem entry_at (x0 : Vec Ideal S4096x4 .i32) (x1 x2 x3 x4 : Vec Ideal S512x256 .bf16) (q : Fin 4096)
    (hq : ∀ i : Fin 4, InRange (x0 (ix2 q i))) :
    k0_pay1 (F := Ideal) (k0_pay3 x0 x1 x2 x3) (k0_pay4 x0 x4) (ix3 0 0 q)
      = ∑ r : Fin 256, ((x1 (ix2 (row (x0 (ix2 q 0))) r) * x2 (ix2 (row (x0 (ix2 q 1))) r)) * x3 (ix2 (row (x0 (ix2 q 2))) r))
          * x4 (ix2 (row (x0 (ix2 q 3))) r) := by
  unfold k0_pay1
  refine (shapeCast_apply _ shapeCasts_S1x4096_S1x1x4096 (ix3 0 0 q) (ix2 0 q) ?_).trans ?_
  · rw [Shape.rowMajor_val_two, Shape.rowMajor_val_three]
    show 0 * 4096 + q.val = (0 * 1 + 0) * 4096 + q.val
    omega
  refine (transpose_apply [1, 0] _ transposes_S4096x1_p1_0_S1x4096 (ix2 0 q) (ix2 q 0) (fun b => ?_)).trans ?_
  · match b with
    | ⟨0, _⟩ => rfl
    | ⟨1, _⟩ => rfl
  refine (shapeCast_apply _ shapeCasts_S4096_S4096x1 (ix2 q 0) (ix1 q) ?_).trans ?_
  · rw [Shape.rowMajor_val_one, Shape.rowMajor_val_two]
    show q.val = q.val * 1 + 0
    omega
  refine (Ideal.multiReduction_add_single _ 0x00000000#32 reduces_S4096x256_S4096 _ _ (ix1 q)).trans ?_
  refine Finset.sum_congr rfl fun r _ => ?_
  have hl : reduces_S4096x256_S4096.lift (ix1 q) r = ix2 q r := by
    funext c; apply Fin.ext
    match c with
    | ⟨0, _⟩ => rfl
    | ⟨1, _⟩ => rfl
  rw [hl]
  unfold k0_pay3 k0_pay4
  exact congrArg₂ (· * ·) (congrArg₂ (· * ·) (congrArg₂ (· * ·)
      (pick x0 0 (by decide) slices_S4096x4_o0_0_S4096x1 x1 q r (hq 0))
      (pick x0 1 (by decide) slices_S4096x4_o0_1_S4096x1 x2 q r (hq 1)))
      (pick x0 2 (by decide) slices_S4096x4_o0_2_S4096x1 x3 q r (hq 2)))
      (pick x0 3 (by decide) slices_S4096x4_o0_3_S4096x1 x4 q r (hq 3))

end Cert.KernelBody

end
-- ==== Proof.KernelArray.lean ====
/-
  From the body's lanes to the kernel's result array.

  Before the region the query list is padded from 100000 to 106496 rows with the word 0 (`padded_eq`, read row by row in
  `padded_lo` / `padded_hi`) and the tables change format, which changes no number (`tab1_eq` … `tab4_eq`). Since 0 is a
  valid index, every word of the padded list is one as soon as every word of the query list is (`padded_inRange`): the
  six and a half thousand padding rows compute real values, which are cut off at the end.

  Grid point t works on rows 4096·t … 4096·t + 4095 of the padded list (`qblk_at`) and on the whole of each table
  (`tblk1_at` …), and writes block t of the [26, 1, 4096] output array. By `Body.entry_at` what it writes is block t of ONE
  whole-array function, `blockValue`: entry (t, 0, q) is the value of padded row 4096·t + q (`flushed5_eq`). The 26 blocks
  tile the array (`cover5`), so after the region the array IS `blockValue` (`final5`).

  After the region the array is flattened — entry (t, 0, q) goes to position 4096·t + q — and cut back to its first
  100000 entries (`result_eq`); there the padded list is the query list, so the result is `Lookup.value` of the argument
  arrays (`kernel_value`), and `run` says so of every execution.
-/
import proofs.«403389_j44272522887177_3_alg».proof.Proof.Gen.KernelIdeal.Frame
import proofs.«403389_j44272522887177_3_alg».proof.Proof.Body
import Idealize.ShloMosaic.Lib.KernelVsHost

set_option maxRecDepth 16384

noncomputable section

namespace Cert.KernelArray

open Idealize.ShloMosaic Idealize.ShloMosaic.TcCoe Idealize.ShloMosaic.ValueIdx Idealize.ShloMosaic.Tactic Idealize.SL.Sem
open Cert.KernelIdeal Cert.KernelIdeal.Gen Cert.Lookup
open Idealize.ShloMosaic.Pipeline (Dat Cfg Window)

variable (m : (ℓ : Loc nD τ sig) → Buf (Elt Ideal) ℓ) (ρ : Dev nD → PrngReg)

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

theorem t_lt (t : Fin cfg0.N) : t.val < 26 := by have := t.isLt; have e : cfg0.N = 26 := N_0; omega

/-- The block of index words at grid point t holds rows 4096·t … 4096·t + 4095 of the padded query list. -/
theorem qblk_at (c : Dev nD) (t : Fin cfg0.N) (q : Fin 4096) (i : Fin 4) :
    iblk m c 0 t (ix2 q i) = V m c main_v0 (ix2 ⟨t.val * 4096 + q.val, by have := t_lt t; omega⟩ i) := by
  obtain ⟨e0, e1, -⟩ := idx_facts t
  show V m c main_v0 (((cfg0.win 0).blk t).view.emb (ix2 q i)) = _
  refine congrArg (V m c main_v0) (funext fun a => Fin.ext ?_)
  match a with
  | ⟨0, _⟩ => show win0_0.index t (0 : Fin 2) * 4096 + 1 * q.val = t.val * 4096 + q.val; omega
  | ⟨1, _⟩ => show win0_0.index t (1 : Fin 2) * 4 + 1 * i.val = i.val; omega

/-- Each table window has one block, the whole table, at every grid point. -/
theorem tblk1_at (c : Dev nD) (t : Fin cfg0.N) (y : S512x256.Idx) : iblk m c 1 t y = V m c main_v1 y := by
  have h := idx_facts t
  show V m c main_v1 (((cfg0.win 1).blk t).view.emb y) = _
  refine congrArg (V m c main_v1) (funext fun a => Fin.ext ?_)
  match a with
  | ⟨0, _⟩ => show win0_1.index t (0 : Fin 2) * 512 + 1 * (y 0).val = (y 0).val; omega
  | ⟨1, _⟩ => show win0_1.index t (1 : Fin 2) * 256 + 1 * (y 1).val = (y 1).val; omega
theorem tblk2_at (c : Dev nD) (t : Fin cfg0.N) (y : S512x256.Idx) : iblk m c 2 t y = V m c main_v2 y := by
  have h := idx_facts t
  show V m c main_v2 (((cfg0.win 2).blk t).view.emb y) = _
  refine congrArg (V m c main_v2) (funext fun a => Fin.ext ?_)
  match a with
  | ⟨0, _⟩ => show win0_2.index t (0 : Fin 2) * 512 + 1 * (y 0).val = (y 0).val; omega
  | ⟨1, _⟩ => show win0_2.index t (1 : Fin 2) * 256 + 1 * (y 1).val = (y 1).val; omega
theorem tblk3_at (c : Dev nD) (t : Fin cfg0.N) (y : S512x256.Idx) : iblk m c 3 t y = V m c main_v3 y := by
  have h := idx_facts t
  show V m c main_v3 (((cfg0.win 3).blk t).view.emb y) = _
  refine congrArg (V m c main_v3) (funext fun a => Fin.ext ?_)
  match a with
  | ⟨0, _⟩ => show win0_3.index t (0 : Fin 2) * 512 + 1 * (y 0).val = (y 0).val; omega
  | ⟨1, _⟩ => show win0_3.index t (1 : Fin 2) * 256 + 1 * (y 1).val = (y 1).val; omega
theorem tblk4_at (c : Dev nD) (t : Fin cfg0.N) (y : S512x256.Idx) : iblk m c 4 t y = V m c main_v4 y := by
  have h := idx_facts t
  show V m c main_v4 (((cfg0.win 4).blk t).view.emb y) = _
  refine congrArg (V m c main_v4) (funext fun a => Fin.ext ?_)
  match a with
  | ⟨0, _⟩ => show win0_4.index t (0 : Fin 2) * 512 + 1 * (y 0).val = (y 0).val; omega
  | ⟨1, _⟩ => show win0_4.index t (1 : Fin 2) * 256 + 1 * (y 1).val = (y 1).val; omega

/-! ## What the region finds in its arrays: the host operations before it -/

/-- The table arrays are the argument tables (the change of format before the region is the identity on numbers). -/
theorem tab1_eq (c : Dev nD) : (V m c main_v1 : S512x256.Idx → EReal) = m ((c : Thread nD τ).loc main_arg0) := by
  have e : (V m c main_v1 : S512x256.Idx → EReal) = truncf (F := Ideal) .bf16 (m ((c : Thread nD τ).loc main_arg0)) bitsLt_bf16_f32 := by
    dsimp only [V, V0]
    simp only [hostOps0, hostOps0_1, hostOps0_2, List.flatten_cons, List.flatten_nil, List.append_nil, List.cons_append, List.nil_append]
    after_results
  rw [e]; rfl

/-- The query array is the query list padded below, up to 106496 rows, with the word 0. -/
theorem padded_eq (c : Dev nD) : (V m c main_v0 : S106496x4.Idx → BitVec 32)
      = pad S106496x4 ![0, 0] ![6496, 0] ![0, 0] (m ((c : Thread nD τ).loc main_arg4)) (constantI S_ 32 0#32) pads_S100000x4_S106496x4_064960_000 h_S_ := by
  dsimp only [V, V0]
  simp only [hostOps0, hostOps0_1, hostOps0_2, List.flatten_cons, List.flatten_nil, List.append_nil, List.cons_append, List.nil_append]
  after_results; rfl

theorem tab2_eq (c : Dev nD) : (V m c main_v2 : S512x256.Idx → EReal) = m ((c : Thread nD τ).loc main_arg1) := by
  have e : (V m c main_v2 : S512x256.Idx → EReal) = truncf (F := Ideal) .bf16 (m ((c : Thread nD τ).loc main_arg1)) bitsLt_bf16_f32 := by
    dsimp only [V, V0]
    simp only [hostOps0, hostOps0_1, hostOps0_2, List.flatten_cons, List.flatten_nil, List.append_nil, List.cons_append, List.nil_append]
    after_results
  rw [e]; rfl
theorem tab3_eq (c : Dev nD) : (V m c main_v3 : S512x256.Idx → EReal) = m ((c : Thread nD τ).loc main_arg2) := by
  have e : (V m c main_v3 : S512x256.Idx → EReal) = truncf (F := Ideal) .bf16 (m ((c : Thread nD τ).loc main_arg2)) bitsLt_bf16_f32 := by
    dsimp only [V, V0]
    simp only [hostOps0, hostOps0_1, hostOps0_2, List.flatten_cons, List.flatten_nil, List.append_nil, List.cons_append, List.nil_append]
    after_results
  rw [e]; rfl
theorem tab4_eq (c : Dev nD) : (V m c main_v4 : S512x256.Idx → EReal) = m ((c : Thread nD τ).loc main_arg3) := by
  have e : (V m c main_v4 : S512x256.Idx → EReal) = truncf (F := Ideal) .bf16 (m ((c : Thread nD τ).loc main_arg3)) bitsLt_bf16_f32 := by
    dsimp only [V, V0]
    simp only [hostOps0, hostOps0_1, hostOps0_2, List.flatten_cons, List.flatten_nil, List.append_nil, List.cons_append, List.nil_append]
    after_results
  rw [e]; rfl

/-- A row of the padded list below 100000 is the query list's row; -/
theorem padded_lo (c : Dev nD) (n : Fin 106496) (hn : n.val < 100000) (i : Fin 4) :
    (V m c main_v0 : S106496x4.Idx → BitVec 32) (ix2 n i) = (m ((c : Thread nD τ).loc main_arg4) : S100000x4.Idx → BitVec 32) (ix2 ⟨n.val, hn⟩ i) := by
  refine (congrFun (padded_eq m c) (ix2 n i)).trans ?_
  refine pad_apply_of_inside ![0, 0] ![6496, 0] ![0, 0] _ _ pads_S100000x4_S106496x4_064960_000 h_S_ (ix2 n i) (ix2 ⟨n.val, hn⟩ i) (fun a => ?_)
  match a with
  | ⟨0, _⟩ => show n.val = 0 + n.val * (0 + 1); omega
  | ⟨1, _⟩ => show i.val = 0 + i.val * (0 + 1); omega

/-- a row from 100000 on holds the pad word 0. -/
theorem padded_hi (c : Dev nD) (n : Fin 106496) (hn : 100000 ≤ n.val) (i : Fin 4) :
    (V m c main_v0 : S106496x4.Idx → BitVec 32) (ix2 n i) = 0#32 := by
  refine (congrFun (padded_eq m c) (ix2 n i)).trans ?_
  refine (pad_apply_of_not_inside (s := S100000x4) (t := S106496x4) ![0, 0] ![6496, 0] ![0, 0]
    (m ((c : Thread nD τ).loc main_arg4) : S100000x4.Idx → BitVec 32) (constantI S_ 32 0#32)
    pads_S100000x4_S106496x4_064960_000 h_S_ (ix2 n i) 0 ?_).trans rfl
  rintro ⟨-, -, h3⟩
  have h3' : (n.val - 0) / (0 + 1) < 100000 := h3
  omega

/-- So when the query list's words are valid indices, every word of the padded list is: the pad word 0 is one. -/
theorem padded_inRange (c : Dev nD)
    (hq : ∀ y : S100000x4.Idx, InRange ((m ((c : Thread nD τ).loc main_arg4) : S100000x4.Idx → BitVec 32) y))
    (n : Fin 106496) (i : Fin 4) : InRange ((V m c main_v0 : S106496x4.Idx → BitVec 32) (ix2 n i)) := by
  by_cases hn : n.val < 100000
  · rw [padded_lo m c n hn i]; exact hq _
  · rw [padded_hi m c n (by omega) i]; exact ⟨by decide, by decide⟩

/-! ## The output array -/

/-- What the kernel's output array holds at (t, 0, q): the value of row 4096·t + q of the padded query list. -/
def blockValue (P : S106496x4.Idx → BitVec 32) (g1 g2 g3 g4 : S512x256.Idx → EReal) : S26x1x4096.Idx → EReal := fun j =>
  entry g1 g2 g3 g4 P ⟨(j 0).val * 4096 + (j 2).val, by
    have h0 : (j 0).val < 26 := (j 0).isLt
    have h2 : (j 2).val < 4096 := (j 2).isLt
    omega⟩

theorem hz2 : (![0, 0] : Fin 2 → Nat) = fun _ => 0 := funext fun a => by fin_cases a <;> rfl
theorem hz3 : (![0, 0, 0] : Fin 3 → Nat) = fun _ => 0 := funext fun a => by fin_cases a <;> rfl

/-- An index of the output block is (0, 0, its lane). -/
theorem eq_lane (j : S1x1x4096.Idx) : j = ix3 0 0 (j 2) := by
  funext a
  match a with
  | ⟨0, _⟩ => exact Fin.ext (by have h : (j 0).val < 1 := (j 0).isLt; show (j 0).val = 0; omega)
  | ⟨1, _⟩ => exact Fin.ext (by have h : (j 1).val < 1 := (j 1).isLt; show (j 1).val = 0; omega)
  | ⟨2, _⟩ => rfl

/-- Lane q of grid point t's output block is entry (t, 0, q) of the array: row 4096·t + q of the padded list. -/
theorem blockValue_emb (P : S106496x4.Idx → BitVec 32) (g1 g2 g3 g4 : S512x256.Idx → EReal) (t : Fin cfg0.N) (q : Fin 4096) :
    blockValue P g1 g2 g3 g4 (((cfg0.win 5).blk t).view.emb (ix3 0 0 q))
      = entry g1 g2 g3 g4 P ⟨t.val * 4096 + q.val, by have := t_lt t; omega⟩ := by
  have h := idx_facts t
  unfold blockValue
  refine congrArg (entry g1 g2 g3 g4 P) (Fin.ext ?_)
  show (win0_5.index t (0 : Fin 3) * 1 + 1 * 0) * 4096 + (win0_5.index t (2 : Fin 3) * 4096 + 1 * q.val) = t.val * 4096 + q.val
  omega

/-- WHAT GRID POINT t WRITES BACK is block t of `blockValue` of the arrays the region finds — when every word of the
    padded query list is a valid index. -/
theorem flushed5_eq (c : Dev nD)
    (hP : ∀ (n : Fin 106496) (i : Fin 4), InRange ((V m c main_v0 : S106496x4.Idx → BitVec 32) (ix2 n i))) (t : Fin cfg0.N) :
    (dats m 0 c).flushed 5 t = ((cfg0.win 5).blk t).view.read (Elt Ideal)
      (blockValue (V m c main_v0) (V m c main_v1) (V m c main_v2) (V m c main_v3) (V m c main_v4)) := by
  show (cfg0.win 5).cut (grid0.coords t) ((dats m 0 c).after 5 t) = _
  rw [after0_5]
  unfold out0_5
  rw [View.canon_unit_zero hz3]
  simp only [View.ld_unit_zero (S := S4096x4) hz2, View.ld_unit_zero (S := S512x256) hz2]
  funext (j : S1x1x4096.Idx)
  obtain ⟨q, rfl⟩ : ∃ q : Fin 4096, j = ix3 0 0 q := ⟨j 2, eq_lane j⟩
  show k0_pay1 (F := Ideal) (k0_pay3 (iblk m c 0 t) (iblk m c 1 t) (iblk m c 2 t) (iblk m c 3 t)) (k0_pay4 (iblk m c 0 t) (iblk m c 4 t)) (ix3 0 0 q)
    = blockValue (V m c main_v0) (V m c main_v1) (V m c main_v2) (V m c main_v3) (V m c main_v4) (((cfg0.win 5).blk t).view.emb (ix3 0 0 q))
  refine (Cert.KernelBody.entry_at (iblk m c 0 t) (iblk m c 1 t) (iblk m c 2 t) (iblk m c 3 t) (iblk m c 4 t) q (fun i => ?_)).trans ?_
  · rw [qblk_at m c t q i]; exact hP _ _
  rw [qblk_at m c t q 0, qblk_at m c t q 1, qblk_at m c t q 2, qblk_at m c t q 3, blockValue_emb]
  unfold entry
  refine Finset.sum_congr rfl fun r _ => ?_
  rw [tblk1_at, tblk2_at, tblk3_at, tblk4_at]

/-- An index of the array is in grid point t's block iff each coordinate is in the block's range on its axis. -/
theorem mem_blk5 (t : Fin cfg0.N) (i : S26x1x4096.Idx) :
    i ∈ ((cfg0.win 5).blk t).view.set ↔ ∀ a : Fin 3, win0_5.index t a * S1x1x4096.size a ≤ (i a).val
      ∧ (i a).val < win0_5.index t a * S1x1x4096.size a + S1x1x4096.size a := by
  show i ∈ ((View.whole main_v5).slice (win0_5.rect t)).set ↔ _
  rw [View.set_slice_whole, Rect.mem_set_unit]
  exact Iff.rfl

/-- The 26 blocks tile the array: entry (t, 0, q) lies in grid point t's block. -/
theorem cover5 (i : S26x1x4096.Idx) : ∃ t : Fin cfg0.N, (cfg0.win 5).flush t = true ∧ i ∈ ((cfg0.win 5).blk t).view.set := by
  have h0 : (i 0).val < 26 := (i 0).isLt
  have h1 : (i 1).val < 1 := (i 1).isLt
  have h2 : (i 2).val < 4096 := (i 2).isLt
  have hN : cfg0.N = 26 := N_0
  obtain ⟨t, ht⟩ : ∃ t : Fin cfg0.N, t.val = (i 0).val := ⟨⟨(i 0).val, by omega⟩, rfl⟩
  refine ⟨t, flush0_5 t, ?_⟩
  rw [mem_blk5]
  obtain ⟨-, -, -, -, -, -, -, -, -, -, e0, e1, e2⟩ := idx_facts t
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1 ≤ (i 1).val ∧ (i 1).val < win0_5.index t (1 : Fin 3) * 1 + 1; omega
  | ⟨2, _⟩ => show win0_5.index t (2 : Fin 3) * 4096 ≤ (i 2).val ∧ (i 2).val < win0_5.index t (2 : Fin 3) * 4096 + 4096; omega

/-- THE OUTPUT ARRAY after the region is `blockValue` of the arrays the region found. -/
theorem final5 (c : Dev nD)
    (hP : ∀ (n : Fin 106496) (i : Fin 4), InRange ((V m c main_v0 : S106496x4.Idx → BitVec 32) (ix2 n i))) :
    (dats m 0 c).arrAt 5 cfg0.N = blockValue (V m c main_v0) (V m c main_v1) (V m c main_v2) (V m c main_v3) (V m c main_v4) :=
  (dats m 0 c).arrAt_eq_of_cover 5 _ (fun t _ => flushed5_eq m c hP t) cover5

/-! ## After the region: the array flattened and cut back to the 100000 queries -/

theorem result_eq (c : Dev nD)
    (hP : ∀ (n : Fin 106496) (i : Fin 4), InRange ((V m c main_v0 : S106496x4.Idx → BitVec 32) (ix2 n i))) :
    (Pipeline.afterTail₀ cfgs (dats m) 0 (V0 m) [hostOps1] c main_v7 : S100000.Idx → EReal)
      = fun b => entry (V m c main_v1) (V m c main_v2) (V m c main_v3) (V m c main_v4) (V m c main_v0)
          ⟨(b 0).val, by have h : (b 0).val < 100000 := (b 0).isLt; omega⟩ := by
  unfold Pipeline.afterTail₀
  show StableHlo.after hostOps1 _ (Proc.devRef .tc main_v7) = _
  after_results
  have hA : (Pipeline.withArrays (cfgs 0).spec c (V0 m c) (fun w => (dats m 0 c).arrAt w (cfgs 0).N) (Proc.tc.devRef main_v5)
        : S26x1x4096.Idx → EReal)
      = blockValue (V m c main_v0) (V m c main_v1) (V m c main_v2) (V m c main_v3) (V m c main_v4) :=
    (Pipeline.withArrays_arr spec0 launch0.win.arr_inj c _ _ 5).trans (final5 m c hP)
  funext b
  obtain ⟨n, rfl⟩ : ∃ n : Fin 100000, b = ix1 n := ⟨b 0, eq_ix1 b⟩
  refine (extractStridedSlice_apply ![0] _ slices_S106496_S100000_0 (ix1 n) (ix1 ⟨n.val, by omega⟩) (fun a => ?_)).trans ?_
  · match a with
    | ⟨0, _⟩ => show n.val = 0 + n.val; omega
  show shapeCast S106496 (Pipeline.withArrays (cfgs 0).spec c (V0 m c) (fun w => (dats m 0 c).arrAt w (cfgs 0).N) (Proc.tc.devRef main_v5)
      : S26x1x4096.Idx → EReal) shapeCasts_S26x1x4096_S106496 (ix1 ⟨n.val, by omega⟩) = _
  rw [hA]
  refine (shapeCast_apply _ shapeCasts_S26x1x4096_S106496 (ix1 ⟨n.val, by omega⟩)
    (ix3 ⟨n.val / 4096, by omega⟩ 0 ⟨n.val % 4096, by omega⟩) ?_).trans ?_
  · rw [Shape.rowMajor_val_three, Shape.rowMajor_val_one]
    show (n.val / 4096 * 1 + 0) * 4096 + n.val % 4096 = n.val
    omega
  unfold blockValue
  refine congrArg (entry (V m c main_v1) (V m c main_v2) (V m c main_v3) (V m c main_v4) (V m c main_v0)) (Fin.ext ?_)
  show n.val / 4096 * 4096 + n.val % 4096 = n.val
  omega

/-- THE KERNEL'S RESULT in terms of the arguments: `Lookup.value` of the four tables and the query list — the region's
    tables are the argument tables, and below row 100000 the padded list is the query list. -/
theorem kernel_value (c : Dev nD)
    (hq : ∀ y : S100000x4.Idx, InRange ((m ((c : Thread nD τ).loc main_arg4) : S100000x4.Idx → BitVec 32) y)) :
    (Pipeline.afterTail₀ cfgs (dats m) 0 (V0 m) [hostOps1] c main_v7 : S100000.Idx → EReal)
      = value (m ((c : Thread nD τ).loc main_arg0)) (m ((c : Thread nD τ).loc main_arg1)) (m ((c : Thread nD τ).loc main_arg2))
          (m ((c : Thread nD τ).loc main_arg3)) (m ((c : Thread nD τ).loc main_arg4)) := by
  rw [result_eq m c (padded_inRange m c hq)]
  funext b
  obtain ⟨n, rfl⟩ : ∃ n : Fin 100000, b = ix1 n := ⟨b 0, eq_ix1 b⟩
  show entry (V m c main_v1 : S512x256.Idx → EReal) (V m c main_v2 : S512x256.Idx → EReal) (V m c main_v3 : S512x256.Idx → EReal)
      (V m c main_v4 : S512x256.Idx → EReal) (V m c main_v0 : S106496x4.Idx → BitVec 32) (⟨n.val, by omega⟩ : Fin 106496)
    = entry _ _ _ _ _ n
  rw [tab1_eq, tab2_eq, tab3_eq, tab4_eq]
  unfold entry
  rw [padded_lo m c ⟨n.val, by omega⟩ n.isLt 0, padded_lo m c ⟨n.val, by omega⟩ n.isLt 1,
    padded_lo m c ⟨n.val, by omega⟩ n.isLt 2, padded_lo m c ⟨n.val, by omega⟩ n.isLt 3]

/-! ## The run -/

/-- Every weakly fair execution of the kernel's program, from a memory whose query words are valid indices, ends with
    the result array at `Lookup.value` of the argument arrays and the arguments unchanged. -/
theorem run (hq : ∀ (c : Dev nD) (y : S100000x4.Idx), InRange ((m ((c : Thread nD τ).loc main_arg4) : S100000x4.Idx → BitVec 32) y)) :
    θ_run defs (onTc (τ := τ) (main (F := Ideal))) ⟨m, fun _ => 0, ρ⟩ fun r => ∀ c : Dev nD,
      r.2.mem ((c.tc : Thread nD τ).loc main_v7)
        = value (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v7 (Pipeline.mem_restRefs_of main_v7 (by decide) (by decide))).trans (kernel_value m c (hq c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelArray

end
-- ==== Proof.RefSide.lean ====
/-
  The reference computes `Lookup.value`.

  Its program slices column i off the query list, shifts a negative word up by the extent, gathers the table rows the
  words name (the gather reads a start word signed and clamps it into the table), multiplies the four gathered arrays
  entry by entry, grouped from the left, and sums each row over the rank from zero. Read at query b that is, word for
  word, `Lookup.entry`: the row a word names is `Lookup.row`, and the zero the sum starts from is the number 0.
-/
import proofs.«403389_j44272522887177_3_alg».proof.Proof.Gen.ReferenceIdeal.Read
import proofs.«403389_j44272522887177_3_alg».proof.Proof.Lookup

noncomputable section

namespace Cert.RefSide

open Idealize.ShloMosaic Idealize.ShloMosaic.ValueIdx Cert.ReferenceIdeal Cert.ReferenceIdeal.Read Cert.Lookup

abbrev Gd := gather_S512x256_S100000x1_S100000x256_1_0_n_n_0_1_1256

/-- On the table's row axis the gather reads the start word of the query's row, signed, clamped into 0 … 511 (the axis
    is the indexed one and is collapsed in the result, so nothing is added to the start). -/
theorem opnd_row (s : IVec S100000x1 32) (b : Fin 100000) (r : Fin 256) :
    (Gd.operandIdx (ix2 b r) s 0).val = min (s (ix2 b 0)).toInt.toNat 511 := by
  show Gd.start (ix2 b r) s 0 + Gd.batchCoord (ix2 b r) 0 + Gd.offCoord (ix2 b r) 0 = _
  rw [Gd.batchCoord_eq_zero _ _ List.not_mem_nil,
    Gd.offCoord_eq_zero _ _ (fun h => ((Gd.mem_sKept _).mp h).1 (List.mem_singleton.mpr rfl))]
  unfold GatherDims.start
  rw [dif_pos (show (0 : Fin S512x256.rank) ∈ Gd.startIndexMap from List.mem_singleton.mpr rfl)]
  have hsi : Gd.siIdx (ix2 b r) ⟨List.idxOf (0 : Fin S512x256.rank) Gd.startIndexMap,
      List.idxOf_lt_length_iff.2 (List.mem_singleton.mpr rfl)⟩ = ix2 b 0 := by
    funext k; refine Fin.ext ?_
    match k with
    | ⟨0, _⟩ => rfl
    | ⟨1, _⟩ => rfl
  rw [hsi]
  rfl

/-- On the rank axis, carried whole into the result, it reads the result's own coordinate. -/
theorem opnd_col (s : IVec S100000x1 32) (b : Fin 100000) (r : Fin 256) :
    (Gd.operandIdx (ix2 b r) s 1).val = r.val := by
  show Gd.start (ix2 b r) s 1 + Gd.batchCoord (ix2 b r) 1 + Gd.offCoord (ix2 b r) 1 = _
  rw [Gd.batchCoord_eq_zero _ _ List.not_mem_nil]
  unfold GatherDims.start
  rw [dif_neg (show ¬ (1 : Fin S512x256.rank) ∈ Gd.startIndexMap by decide)]
  unfold GatherDims.offCoord
  rw [dif_pos (show (1 : Fin S512x256.rank) ∈ Gd.sKept by decide)]
  show 0 + 0 + r.val = r.val
  omega

/-- The gather of table rows, read at (b, r): the table at (start word of query b, read signed and clamped into
    0 … 511; r). -/
theorem gather_at {α : Type} (x : S512x256.Idx → α) (s : IVec S100000x1 32) (b : Fin 100000) (r : Fin 256) :
    Host.gather Gd x s (ix2 b r) = x (ix2 (clamp (s (ix2 b 0))) r) := by
  unfold Host.gather
  refine congrArg x (funext fun a => Fin.ext ?_)
  match a with
  | ⟨0, _⟩ => exact opnd_row s b r
  | ⟨1, _⟩ => exact opnd_col s b r

/-! ## The start words: column i of the query list, a negative word shifted up by the extent -/

theorem start0 (x4 : IVec S100000x4 32) (b : Fin 100000) :
    val_main_v7 (F := Ideal) x4 (ix2 b 0) = wrap (x4 (ix2 b 0)) := by
  rw [val_main_v7_apply, val_main_v6_apply, val_main_v3_apply, val_main_v5_apply, val_main_v2_apply, val_main_v4_apply,
    val_main_c_apply, val_main_c_0_apply, val_main_v1_apply, val_main_v0_apply]
  have hi : idx_main_v0 (idx_main_v1 (idx_main_v7 (ix2 b 0))) = ix2 b 0 := by
    funext a; refine Fin.ext ?_
    match a with
    | ⟨0, _⟩ => show b.val / 1 = b.val; omega
    | ⟨1, _⟩ => rfl
  rw [hi]; rfl

theorem start1 (x4 : IVec S100000x4 32) (b : Fin 100000) :
    val_main_v16 (F := Ideal) x4 (ix2 b 0) = wrap (x4 (ix2 b 1)) := by
  rw [val_main_v16_apply, val_main_v15_apply, val_main_v12_apply, val_main_v14_apply, val_main_v11_apply, val_main_v13_apply,
    val_main_c_1_apply, val_main_c_2_apply, val_main_v10_apply, val_main_v9_apply]
  have hi : idx_main_v9 (idx_main_v10 (idx_main_v16 (ix2 b 0))) = ix2 b 1 := by
    funext a; refine Fin.ext ?_
    match a with
    | ⟨0, _⟩ => show b.val / 1 = b.val; omega
    | ⟨1, _⟩ => rfl
  rw [hi]; rfl

theorem start2 (x4 : IVec S100000x4 32) (b : Fin 100000) :
    val_main_v26 (F := Ideal) x4 (ix2 b 0) = wrap (x4 (ix2 b 2)) := by
  rw [val_main_v26_apply, val_main_v25_apply, val_main_v22_apply, val_main_v24_apply, val_main_v21_apply, val_main_v23_apply,
    val_main_c_3_apply, val_main_c_4_apply, val_main_v20_apply, val_main_v19_apply]
  have hi : idx_main_v19 (idx_main_v20 (idx_main_v26 (ix2 b 0))) = ix2 b 2 := by
    funext a; refine Fin.ext ?_
    match a with
    | ⟨0, _⟩ => show b.val / 1 = b.val; omega
    | ⟨1, _⟩ => rfl
  rw [hi]; rfl

theorem start3 (x4 : IVec S100000x4 32) (b : Fin 100000) :
    val_main_v36 (F := Ideal) x4 (ix2 b 0) = wrap (x4 (ix2 b 3)) := by
  rw [val_main_v36_apply, val_main_v35_apply, val_main_v32_apply, val_main_v34_apply, val_main_v31_apply, val_main_v33_apply,
    val_main_c_5_apply, val_main_c_6_apply, val_main_v30_apply, val_main_v29_apply]
  have hi : idx_main_v29 (idx_main_v30 (idx_main_v36 (ix2 b 0))) = ix2 b 3 := by
    funext a; refine Fin.ext ?_
    match a with
    | ⟨0, _⟩ => show b.val / 1 = b.val; omega
    | ⟨1, _⟩ => rfl
  rw [hi]; rfl

/-! ## The reference's result -/

/-- THE REFERENCE IS `Lookup.value`: at query b its sum from zero over the rank of the product, grouped from the left, of
    the four gathered arrays is `Lookup.entry` — each gathered entry is the table at the row `Lookup.row` names. -/
theorem ref_value (x0 x1 x2 x3 : (⟨S512x256, .f32⟩ : BufTy).Contents (Elt Ideal)) (x4 : (⟨S100000x4, .i32⟩ : BufTy).Contents (Elt Ideal)) :
    val_main_v39 (F := Ideal) x0 x1 x2 x3 x4 = value x0 x1 x2 x3 x4 := by
  funext j
  obtain ⟨b, rfl⟩ : ∃ b : Fin 100000, j = ix1 b := ⟨j 0, eq_ix1 j⟩
  rw [val_main_v39_apply]
  show Ideal.ofBits .f32 0x00000000#32 + _ = _
  rw [Ideal.ofBits_zero_f32, zero_add]
  show _ = entry x0 x1 x2 x3 x4 b
  unfold entry
  refine Finset.sum_congr rfl fun r _ => ?_
  have hi : idx_main_v39 (ix1 b) r = ix2 b r := by
    funext a; refine Fin.ext ?_
    match a with
    | ⟨0, _⟩ => rfl
    | ⟨1, _⟩ => rfl
  rw [hi, val_main_v38_apply, val_main_v28_apply, val_main_v18_apply]
  unfold val_main_v8 val_main_v17 val_main_v27 val_main_v37
  rw [gather_at, gather_at, gather_at, gather_at, start0, start1, start2, start3]
  rfl

end Cert.RefSide

end
-- ==== Proof.PreRange.lean ====
/-
  What the precondition says of the query list: every index word is a valid index into an axis of extent 512.

  The precondition is a conjunction of "all" tests. Its last two conjuncts test, over the whole query list, that each
  word is at least 0 and that each word is below 512, as signed numbers. A conjunction of bits is one only if each is,
  and an "all" over an array is one only if the tested bit is one at every entry.
-/
import proofs.«403389_j44272522887177_3_alg».proof.Proof.Gen.Pre_finite_inputs
import proofs.«403389_j44272522887177_3_alg».proof.Proof.Lookup
import Idealize.ShloMosaic.Lib.ReduceAll
import Idealize.ShloMosaic.Lib.Affine

noncomputable section

namespace Cert.PreRange

open Idealize.ShloMosaic Idealize.ShloMosaic.ValueIdx Cert.Pre_finite_inputs Cert.Lookup

instance : Subsingleton S_.Idx := ⟨fun a b => funext fun d => d.elim0⟩

/-- Under the precondition every word of the query list is in range. -/
theorem inRange_of_pre {F : FTy → Type} [FloatOps F] (a0 a1 a2 a3 : FVec F S512x256 .f32) (a4 : IVec S100000x4 32)
    (h : fn (F := F) a0 a1 a2 a3 a4 = fun _ => 1#1) (y : S100000x4.Idx) : InRange (a4 y) := by
  have h1 := congrFun h ix0
  dsimp only [fn, fn_part1] at h1
  obtain ⟨h2, hlt⟩ := IntOp.andi_eq_one.mp h1
  obtain ⟨_, hge⟩ := IntOp.andi_eq_one.mp h2
  exact ⟨Host.reduce_andi_all _ _ _ _ ix0 hge y, Host.reduce_andi_all _ _ _ _ ix0 hlt y⟩

end Cert.PreRange

end
-- ==== Proof.lean ====
/-
  A rank-256 canonical-polyadic tensor of order four, read at 100000 queries: with factor tables f₀ … f₃ (512 rows of
  256 numbers each) and a query list q of four index words per query, the value of query b is

      Σ_r  ((f₀[q(b,0), r] · f₁[q(b,1), r]) · f₂[q(b,2), r]) · f₃[q(b,3), r]        (`Lookup.value`).

  The reference reads the four rows by indexing the tables. The kernel has no indexed read: for each of the four columns
  it builds the 4096 × 512 indicator matrix "query's word = row number", multiplies it into the table, and so picks the
  row out by a sum, Σ_d [w = d] · f[d, r] = f[w, r]; it does this for 26 blocks of 4096 queries, the list padded from
  100000 to 106496 rows with the word 0, lays each block's 4096 sums along the lanes of a [26, 1, 4096] array, and
  afterwards flattens that array and keeps its first 100000 entries.

  The two agree exactly where the index words are valid indices, 0 ≤ w < 512, which is the statement's precondition
  beside finiteness: outside it the indicator row is all zero and the kernel's product vanishes, while an indexed read
  wraps a negative word and clamps. Inside it the law above holds for every extended real, using only 0 · x = 0 and
  1 · x = x, so finiteness is never used; the products are grouped the same way on both sides and both sums start from
  zero, so no rearrangement is needed either.

  The modules: `Lookup` (the value, the row a word names, the indicator-sum law), `Body` (one lane of the kernel body's
  stored block is `Lookup.entry` of its query), `KernelArray` (the 26 blocks tile the output array; the padded rows carry
  the valid word 0; flattening and cutting back gives `Lookup.value` of the arguments), `RefSide` (the reference's result is
  `Lookup.value`), `PreRange` (the precondition makes every query word a valid index). The three frames are the programs'
  runs with the result forgotten; the idealization rewrote nothing, so there is nothing to preserve.
-/
import proofs.«403389_j44272522887177_3_alg».proof.Defs
import proofs.«403389_j44272522887177_3_alg».proof.Proof.Gen.Kernel
import proofs.«403389_j44272522887177_3_alg».proof.Proof.Gen.Kernel.Frame
import proofs.«403389_j44272522887177_3_alg».proof.Proof.Gen.KernelIdeal
import proofs.«403389_j44272522887177_3_alg».proof.Proof.Gen.KernelIdeal.Frame
import proofs.«403389_j44272522887177_3_alg».proof.Proof.Gen.ReferenceIdeal
import proofs.«403389_j44272522887177_3_alg».proof.Proof.Gen.ReferenceIdeal.Run
import proofs.«403389_j44272522887177_3_alg».proof.Proof.Gen.Pre_finite_inputs
import proofs.«403389_j44272522887177_3_alg».proof.Proof.KernelArray
import proofs.«403389_j44272522887177_3_alg».proof.Proof.RefSide
import proofs.«403389_j44272522887177_3_alg».proof.Proof.PreRange

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with `Lookup.value` of the argument arrays: the kernel because under the precondition every query
    word is a valid index, the reference unconditionally; and the two memories agree on the arguments. -/
theorem algebraic : Cert.algebraic_KernelIdeal_ReferenceIdeal := by
  intro m ρ m' ρ' hpre hagree
  refine ⟨_, Cert.KernelArray.run m ρ (fun c y => Cert.PreRange.inRange_of_pre _ _ _ _ _ (hpre c) y), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v39_eq _ _ _ _ _).trans (Cert.RefSide.ref_value _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
